-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x32 : Shape := ⟨2, ![100000, 32]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : IVec S2x1600000 32) (main_arg1 : FVec F S100000x32 .f32) (main_arg2 : FVec F S1600000 .f32) : IVec S_ 1 :=
  let main_v0 : FVec F S100000x32 .f32 := Host.absf main_arg1
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  main_v8
-- ==== Kernel.lean ====
abbrev S2x1600000 : Shape := ⟨2, ![2, 1600000]⟩
abbrev S100000x32 : Shape := ⟨2, ![100000, 32]⟩
abbrev S1600000 : Shape := ⟨1, ![1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x32 : Shape := ⟨2, ![10000, 32]⟩
abbrev S10000x1 : Shape := ⟨2, ![10000, 1]⟩

abbrev nBuf : Space → Nat
  | .hbm => 11
  | .vmem => 6
  | .smem => 0
  | _ => 0

abbrev bufTy : (tb : Table) → Fin (tcTables nBuf tb) → BufTy
  | .hbm, ⟨0, _⟩ => ⟨S2x1600000, .i32⟩
  | .hbm, ⟨1, _⟩ => ⟨S100000x32, .f32⟩
  | .hbm, ⟨2, _⟩ => ⟨S1600000, .f32⟩
  | .hbm, ⟨3, _⟩ => ⟨S1x1600000, .i32⟩
  | .hbm, ⟨4, _⟩ => ⟨S1600000, .i32⟩
  | .hbm, ⟨5, _⟩ => ⟨S_, .f32⟩
  | .hbm, ⟨6, _⟩ => ⟨S100000, .f32⟩
  | .hbm, ⟨7, _⟩ => ⟨S1600000x1, .i32⟩
  | .hbm, ⟨8, _⟩ => ⟨S100000, .f32⟩
  | .hbm, ⟨9, _⟩ => ⟨S100000x1, .f32⟩
  | .hbm, ⟨10, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x1, .f32⟩
  | .local _ .vmem, ⟨3, _⟩ => ⟨S10000x1, .f32⟩
  | .local _ .vmem, ⟨4, _⟩ => ⟨S10000x32, .f32⟩
  | .local _ .vmem, ⟨5, _⟩ => ⟨S10000x32, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x32_S10000x32_0_0 : ∀ a, (![0, 0] : Fin 2 → Nat) a + S10000x32.size a ≤ S10000x32.size a
  h_S10000x32 : 0 < S10000x32.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg1) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1600000 : Shape := ⟨2, ![2, 1600000]⟩
abbrev S100000x32 : Shape := ⟨2, ![100000, 32]⟩
abbrev S1600000 : Shape := ⟨1, ![1600000]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩

abbrev nBuf : Space → Nat
  | .hbm => 21
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S100000x32, .f32⟩
  | .hbm, ⟨2, _⟩ => ⟨S1600000, .f32⟩
  | .hbm, ⟨3, _⟩ => ⟨S1x1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x32, .f32⟩
  | .hbm, ⟨14, _⟩ => ⟨S1600000x1, .f32⟩
  | .hbm, ⟨15, _⟩ => ⟨S1600000x32, .f32⟩
  | .hbm, ⟨16, _⟩ => ⟨S1600000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Finite.lean ====
/-
  What the precondition gives: every entry of the feature matrix and of the weight vector is a real number.

  The printed precondition is `all (|x| < +∞) ∧ all (|W| < +∞)`. Each `all` is a reduction by `and` that came out
  `1`, so every compared element gave `1`; and an extended real whose absolute value `max v (-v)` is below `+∞` is
  neither infinity, hence the inclusion of a real number.
-/
import proofs.«414492_j9887014715655_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The scalar shape has one index. -/
instance : Subsingleton S_.Idx := ⟨fun _ _ => funext fun d => d.elim0⟩

/-- The word `0x7F800000` denotes `+∞`. -/
theorem inf_word : Ideal.ofBits .f32 0x7F800000#32 = (⊤ : EReal) := by
  simp [Ideal.ofBits, Ideal.ieee]

/-- An extended real whose absolute value compares below `+∞` is a real number. -/
theorem real_of_abs_lt_inf (v : EReal)
    (h : Ideal.cmp .olt (max v (-v)) (Ideal.ofBits .f32 0x7F800000#32) = 1#1) : ∃ r : ℝ, v = r := by
  rw [inf_word] at h
  have h' : max v (-v) < ⊤ := by
    unfold Ideal.cmp at h
    by_contra hn
    simp [hn] at h
  induction v using EReal.rec with
  | bot => simp at h'
  | coe r => exact ⟨r, rfl⟩
  | top => simp at h'

/-- Under the precondition every feature and every weight is real. -/
theorem real_of_pre (x0 : IVec S2x1600000 32) (x1 : FVec Ideal S100000x32 .f32) (x2 : FVec Ideal S1600000 .f32)
    (h : Cert.Pre_finite_inputs.fn (F := Ideal) x0 x1 x2 = fun _ => 1#1) :
    (∀ i : S100000x32.Idx, ∃ r : ℝ, x1 i = r) ∧ (∀ e : S1600000.Idx, ∃ r : ℝ, x2 e = r) := by
  have h0 := congrFun h ValueIdx.ix0
  dsimp only [Cert.Pre_finite_inputs.fn] at h0
  obtain ⟨ha, hb⟩ := IntOp.andi_eq_one.1 h0
  refine ⟨fun i => ?_, fun e => ?_⟩
  · exact real_of_abs_lt_inf _ (Host.reduce_andi_all _ _ _ _ _ ha i)
  · exact real_of_abs_lt_inf _ (Host.reduce_andi_all _ _ _ _ _ hb e)

end Cert.Finite

end
-- ==== Proof.KernelArray.lean ====
/-
  What the kernel leaves in its result array: every row of the feature matrix scaled by that row's entry of the
  one-column matrix the host prepared.

  The grid has ten points; point `t` fetches rows `[10000·t, 10000·t + 10000)` of the features and of the column,
  and writes back the same rows of the result, each entry `x[r, d] · col[r, 0]`. The three windows move together
  (one block index per point, decided over the ten points), so what a point writes is the restriction to its rows
  of ONE function of the whole arrays (`scaled`), and the ten blocks tile the array.
-/
import proofs.«414492_j9887014715655_2_alg».proof.Proof.Gen.KernelIdeal.Value
import Idealize.ShloMosaic.Lib.Pipeline.Value
import Idealize.ShloMosaic.Lib.ValueIdx
import Idealize.ShloMosaic.Lib.StableHlo.Run

noncomputable section

namespace Cert.KernelIdeal.Scaled

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- Entry `(r, d)` of the result: the feature `a[r, d]` times the column's entry `col[r, 0]`. -/
abbrev scaled (a : S100000x32.Idx → Elt F .f32) (col : S100000x1.Idx → Elt F .f32) : S100000x32.Idx → Elt F .f32 :=
  fun i => FloatOps.mulf (a i) (col (ix2 (n0 := 100000) (i 0) (⟨0, Nat.one_pos⟩ : Fin 1)))

theorem zero_offsets : (![0, 0] : Fin 2 → Nat) = fun _ => 0 := funext fun a => by fin_cases a <;> rfl

/-- The three windows sit on the same block of rows at every point, and on column block `0`. -/
theorem windows_move_together : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = 0
    ∧ win0_2.index t (0 : Fin 2) ≤ 9 ∧ win0_2.index t (1 : Fin 2) = 0 :=
  (by decide +kernel : ∀ t : Fin grid0.N, _)

/-- Each of the ten row blocks is some point's. -/
theorem every_block_reached : ∀ q : Fin 10, ∃ t : Fin cfg0.N, win0_2.index t = ![q.val, 0] :=
  (by decide +kernel : ∀ q : Fin 10, ∃ t : Fin grid0.N, win0_2.index t = ![q.val, 0])

/-- WHAT POINT `t` WRITES BACK is its block of `scaled` of the arrays as the region finds them. -/
theorem flushed_eq (c : Dev nD) (t : Fin cfg0.N) :
    (dats m 0 c).flushed 2 t
      = ((cfg0.win 2).blk t).view.read (Elt F) (scaled (V m c main_arg1) (V m c main_v5)) := by
  show (cfg0.win 2).cut (grid0.coords t) ((dats m 0 c).after 2 t) = _
  rw [after0_2]
  unfold out0_2
  rw [View.canon_unit_zero zero_offsets]
  simp only [View.ld_unit_zero (S := S10000x32) zero_offsets, View.ld_unit_zero (S := S10000x1) zero_offsets]
  obtain ⟨e0, e1, e2, e3, e4, e5⟩ := windows_move_together t
  funext j
  refine (Value.piece2_0 (F := F) _ _ j).trans ?_
  have hj0 : (j 0).val < 10000 := (j 0).isLt
  have hj1 : (j 1).val < 32 := (j 1).isLt
  show FloatOps.mulf (V m c main_arg1 (((cfg0.win 0).blk t).view.emb (Value.ix2_0 (r0_0.idx j))))
        (V m c main_v5 (((cfg0.win 1).blk t).view.emb (Value.ix2_1 (r0_0.idx j))))
      = FloatOps.mulf (V m c main_arg1 (((cfg0.win 2).blk t).view.emb j))
        (V m c main_v5 (ix2 (n0 := 100000) ((((cfg0.win 2).blk t).view.emb j) 0) (⟨0, Nat.one_pos⟩ : Fin 1)))
  have h0 : ((cfg0.win 0).blk t).view.emb (Value.ix2_0 (r0_0.idx j)) = ((cfg0.win 2).blk t).view.emb j := by
    funext a; apply Fin.ext
    match a with
    | ⟨0, _⟩ =>
      show win0_0.index t (0 : Fin 2) * 10000 + 1 * (0 + 1 * (j 0).val) = win0_2.index t (0 : Fin 2) * 10000 + 1 * (j 0).val
      omega
    | ⟨1, _⟩ =>
      show win0_0.index t (1 : Fin 2) * 32 + 1 * (0 + 1 * (j 1).val) = win0_2.index t (1 : Fin 2) * 32 + 1 * (j 1).val
      omega
  have h1 : ((cfg0.win 1).blk t).view.emb (Value.ix2_1 (r0_0.idx j))
      = ix2 (n0 := 100000) ((((cfg0.win 2).blk t).view.emb j) 0) (⟨0, Nat.one_pos⟩ : Fin 1) := by
    funext a; apply Fin.ext
    match a with
    | ⟨0, _⟩ =>
      show win0_1.index t (0 : Fin 2) * 10000 + 1 * (0 + 1 * (j 0).val) = win0_2.index t (0 : Fin 2) * 10000 + 1 * (j 0).val
      omega
    | ⟨1, _⟩ =>
      show win0_1.index t (1 : Fin 2) * 1 + 1 * 0 = 0
      omega
  rw [h0, h1]

/-- An index is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v6).slice (win0_2.rect t)).set ↔ _
  rw [View.set_slice_whole, Rect.mem_set_unit]
  exact Iff.rfl

/-- The blocks tile the result: row `r` is in the block of the point whose block index is `r / 10000`. -/
theorem covered (c : Dev nD) (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := every_block_reached ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 32 ≤ (i 1).val ∧ (i 1).val < win0_2.index t (1 : Fin 2) * 32 + 32
    omega

/-- THE RESULT ARRAY after the run is `scaled` of the features and the column as the region finds them. -/
theorem final (c : Dev nD) :
    (dats m 0 c).arrAt 2 cfg0.N = scaled (V m c main_arg1) (V m c main_v5) :=
  (dats m 0 c).arrAt_eq_of_cover 2 _ (fun t _ => flushed_eq m c t) (covered c)

/-! ## The column the host prepared -/

/-- The raw segment ids as the host lays them out for its scatter: row 1 of the edge list, as an `E × 1` matrix. -/
abbrev segIds (x0 : (⟨S2x1600000, .i32⟩ : BufTy).Contents (Elt F)) : (⟨S1600000x1, .i32⟩ : BufTy).Contents (Elt F) :=
  broadcastInDim S1600000x1 ![0] bcast_S1600000_S1600000x1_0
    (shapeCast _ (extractStridedSlice S1x1600000 ![1, 0] x0 slices_S2x1600000_S1x1600000_1_0) shapeCasts_S1x1600000_S1600000)

/-- The column the region finds: the weights summed onto their segment ids from a zero vector, as an `N × 1` matrix. -/
abbrev weightColumn (x0 : (⟨S2x1600000, .i32⟩ : BufTy).Contents (Elt F)) (x2 : (⟨S1600000, .f32⟩ : BufTy).Contents (Elt F)) :
    (⟨S100000x1, .f32⟩ : BufTy).Contents (Elt F) :=
  broadcastInDim S100000x1 ![0] bcast_S100000_S100000x1_0
    (Host.scatterAdd scatter_S100000_S1600000x1_S1600000_n_0_0_1
      (broadcastInDim S100000 ![] bcast_S_S100000 (constant (F := F) S_ .f32 0x00000000#32)) (segIds x0) x2)

theorem column_eq (c : Dev nD) :
    (V m c main_v5 : S100000x1.Idx → Elt F .f32)
      = weightColumn (m ((c : Thread nD τ).loc main_arg0)) (m ((c : Thread nD τ).loc main_arg2)) := by
  dsimp only [Gen.V, Gen.hostOps0]
  after_results
  rfl

/-! ## The run, read -/

/-- The frame run re-posted: the result array is `scaled` of the launched features and the weight column of the
    launched edge list and weights; the arguments are unchanged. -/
theorem run : θ_run defs (onTc (τ := τ) (main (F := F))) ⟨m, fun _ => 0, ρ⟩ fun r => ∀ c : Dev nD,
      r.2.mem ((c : Thread nD τ).loc main_v6)
        = scaled (m ((c : Thread nD τ).loc main_arg1))
            (weightColumn (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [V_main_arg1, column_eq])), (h c).2⟩)
    (Value.run_blocks m ρ)

end Cert.KernelIdeal.Scaled

end
-- ==== Proof.LibLanding.lean ====
/-
  Where a scattered update lands, and which row a row-gather reads, for the dimension numbers that
  `segment_sum` and `x[ids]` lower to.

  * A flat segment sum (`segDims`): update `e` of a length-`E` vector goes to the element of a length-`N`
    vector named by the signed word `ids[e, 0]`, and is dropped unless that word lies in `[0, N)`.
  * A segment sum of rows (`rowsDims`): update `(e, d)` of an `E × D` matrix goes to `(ids[e, 0], d)` of an
    `N × D` matrix, under the same range condition on the row.
  * A gather of rows (`rowGatherDims`): result `(e, d)` reads the operand at row `ids[e, 0]`, read signed and
    clamped into `[0, N - 1]`, and column `d`.

  Each is the general definition (`ScatterDims.resultIdx?`, `GatherDims.operandIdx`) computed on these
  literal axis lists; the extents stay symbolic.
-/
import Idealize.ShloMosaic.PureOps.Ideal
import Idealize.ShloMosaic.Lib.ValueIdx

noncomputable section

namespace Idealize.ShloMosaic.Landing

open Idealize.ShloMosaic Idealize.ShloMosaic.ValueIdx

/-- The index `[e, 0]` of a one-column integer matrix. -/
abbrev colIdx {E : Nat} (e : Fin E) : (⟨2, ![E, 1]⟩ : Shape).Idx := ix2 e ⟨0, Nat.one_pos⟩

/-! ## A flat segment sum -/

section Seg
variable {N E w : Nat}

/-- The dimension numbers of `segment_sum` of a vector: no window axis, the operand's one axis inserted and
    indexed by the one component of each index vector. -/
abbrev segDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The start on the operand's axis is the signed word at `[e, 0]`. -/
theorem segDims_start (e : (⟨1, ![E]⟩ : Shape).Idx) (idx : IVec ⟨2, ![E, 1]⟩ w) (a : Fin 1) :
    (segDims N E wf).start e idx a = (idx (colIdx (e 0))).toInt := by
  obtain rfl : a = 0 := Subsingleton.elim _ _
  unfold ScatterDims.start
  rw [dif_pos (show (0 : Fin 1) ∈ (segDims N E wf).scatterDimsToOperandDims from List.mem_singleton.mpr rfl)]
  have hsi : (segDims N E wf).siIdx e ⟨List.idxOf (0 : Fin 1) (segDims N E wf).scatterDimsToOperandDims,
      List.idxOf_lt_length_iff.2 (List.mem_singleton.mpr rfl)⟩ = colIdx (e 0) := by
    funext b; refine Fin.ext ?_
    match b with
    | ⟨0, _⟩ => rfl
    | ⟨1, _⟩ => rfl
  exact congrArg (fun k => (idx k).toInt) hsi

/-- There is no window: the one axis is inserted. -/
theorem segDims_window (e : (⟨1, ![E]⟩ : Shape).Idx) (a : Fin 1) : (segDims N E wf).window e a = 0 := by
  obtain rfl : a = 0 := Subsingleton.elim _ _
  unfold ScatterDims.window
  rw [dif_neg (by simp [ScatterDims.sKept, Shape.kept, List.mem_filter, List.mem_finRange])]

/-- Update `e` lands on element `n` exactly when the signed word at `[e, 0]` is `n`. -/
theorem segDims_lands_iff (e : (⟨1, ![E]⟩ : Shape).Idx) (idx : IVec ⟨2, ![E, 1]⟩ w) (n : (⟨1, ![N]⟩ : Shape).Idx) :
    (segDims N E wf).resultIdx? e idx = some n ↔ (idx (colIdx (e 0))).toInt = ((n 0).val : ℤ) := by
  have hn : (n 0).val < N := (n 0).isLt
  unfold ScatterDims.resultIdx?
  split
  · next h =>
    have h0 := h 0
    rw [segDims_start, segDims_window] at h0
    rw [Option.some.injEq]
    constructor
    · intro heq
      have h1 : ((segDims N E wf).start e idx 0 + ((segDims N E wf).window e 0 : ℤ)).toNat = (n 0).val :=
        congrArg (fun f => (f 0).val) heq
      rw [segDims_start, segDims_window] at h1
      omega
    · intro hz
      funext a
      obtain rfl : a = 0 := Subsingleton.elim _ _
      apply Fin.ext
      show ((segDims N E wf).start e idx 0 + ((segDims N E wf).window e 0 : ℤ)).toNat = (n 0).val
      rw [segDims_start, segDims_window]
      omega
  · next h =>
    constructor
    · intro heq; cases heq
    · intro hz
      exfalso; apply h
      intro a
      obtain rfl : a = 0 := Subsingleton.elim _ _
      rw [segDims_start, segDims_window]
      show _ ∧ _ < ((N : ℕ) : ℤ)
      omega

end Seg

/-! ## A segment sum of rows -/

section Rows
variable {N E D w : Nat}

/-- The dimension numbers of `segment_sum` of a matrix's rows: the updates' axis 1 is the window, the operand's
    axis 0 is inserted and indexed by the one component of each index vector. -/
abbrev rowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1)

/-- On the row axis the start is the signed word at `[e, 0]`. -/
theorem rowsDims_start0 (j : (⟨2, ![E, D]⟩ : Shape).Idx) (idx : IVec ⟨2, ![E, 1]⟩ w) :
    (rowsDims N E D wf).start j idx 0 = (idx (colIdx (j 0))).toInt := by
  unfold ScatterDims.start
  rw [dif_pos (show (0 : Fin 2) ∈ (rowsDims N E D wf).scatterDimsToOperandDims from List.mem_singleton.mpr rfl)]
  have hsi : (rowsDims N E D wf).siIdx j ⟨List.idxOf (0 : Fin 2) (rowsDims N E D wf).scatterDimsToOperandDims,
      List.idxOf_lt_length_iff.2 (List.mem_singleton.mpr rfl)⟩ = colIdx (j 0) := by
    funext b; refine Fin.ext ?_
    match b with
    | ⟨0, _⟩ => rfl
    | ⟨1, _⟩ => rfl
  exact congrArg (fun k => (idx k).toInt) hsi

/-- On the column axis nothing is indexed: the start is zero. -/
theorem rowsDims_start1 (j : (⟨2, ![E, D]⟩ : Shape).Idx) (idx : IVec ⟨2, ![E, 1]⟩ w) :
    (rowsDims N E D wf).start j idx 1 = 0 := by
  unfold ScatterDims.start
  rw [dif_neg (show (1 : Fin 2) ∉ ([0] : List (Fin 2)) by decide)]

/-- The row axis is inserted: no window coordinate. -/
theorem rowsDims_window0 (j : (⟨2, ![E, D]⟩ : Shape).Idx) : (rowsDims N E D wf).window j 0 = 0 := by
  unfold ScatterDims.window
  rw [dif_neg (by simp [ScatterDims.sKept, Shape.kept, List.mem_filter, List.mem_finRange])]

/-- The column axis carries the update's column. -/
theorem rowsDims_window1 (j : (⟨2, ![E, D]⟩ : Shape).Idx) : (rowsDims N E D wf).window j 1 = (j 1).val := by
  unfold ScatterDims.window
  rw [dif_pos (by simp [ScatterDims.sKept, Shape.kept, List.mem_filter, List.mem_finRange])]
  rfl

/-- Update `(e, d)` lands on `(n, d')` exactly when the signed word at `[e, 0]` is `n` and `d = d'`. -/
theorem rowsDims_lands_iff (j : (⟨2, ![E, D]⟩ : Shape).Idx) (idx : IVec ⟨2, ![E, 1]⟩ w) (i : (⟨2, ![N, D]⟩ : Shape).Idx) :
    (rowsDims N E D wf).resultIdx? j idx = some i ↔
      (idx (colIdx (j 0))).toInt = ((i 0).val : ℤ) ∧ (j 1).val = (i 1).val := by
  have hi0 : (i 0).val < N := (i 0).isLt
  have hi1 : (i 1).val < D := (i 1).isLt
  have hj1 : (j 1).val < D := (j 1).isLt
  unfold ScatterDims.resultIdx?
  split
  · next h =>
    rw [Option.some.injEq]
    have h0 := h 0
    rw [rowsDims_start0, rowsDims_window0] at h0
    constructor
    · intro heq
      have e0 : ((rowsDims N E D wf).start j idx 0 + ((rowsDims N E D wf).window j 0 : ℤ)).toNat = (i 0).val :=
        congrArg (fun f => (f 0).val) heq
      have e1 : ((rowsDims N E D wf).start j idx 1 + ((rowsDims N E D wf).window j 1 : ℤ)).toNat = (i 1).val :=
        congrArg (fun f => (f 1).val) heq
      rw [rowsDims_start0, rowsDims_window0] at e0
      rw [rowsDims_start1, rowsDims_window1] at e1
      omega
    · rintro ⟨hz, hd⟩
      funext a
      apply Fin.ext
      match a with
      | ⟨0, _⟩ =>
        show ((rowsDims N E D wf).start j idx 0 + ((rowsDims N E D wf).window j 0 : ℤ)).toNat = (i 0).val
        rw [rowsDims_start0, rowsDims_window0]; omega
      | ⟨1, _⟩ =>
        show ((rowsDims N E D wf).start j idx 1 + ((rowsDims N E D wf).window j 1 : ℤ)).toNat = (i 1).val
        rw [rowsDims_start1, rowsDims_window1]; omega
  · next h =>
    constructor
    · intro heq; cases heq
    · rintro ⟨hz, hd⟩
      exfalso; apply h
      intro a
      match a with
      | ⟨0, _⟩ =>
        show 0 ≤ (rowsDims N E D wf).start j idx 0 + ((rowsDims N E D wf).window j 0 : ℤ)
          ∧ (rowsDims N E D wf).start j idx 0 + ((rowsDims N E D wf).window j 0 : ℤ) < ((N : ℕ) : ℤ)
        rw [rowsDims_start0, rowsDims_window0]; omega
      | ⟨1, _⟩ =>
        show 0 ≤ (rowsDims N E D wf).start j idx 1 + ((rowsDims N E D wf).window j 1 : ℤ)
          ∧ (rowsDims N E D wf).start j idx 1 + ((rowsDims N E D wf).window j 1 : ℤ) < ((D : ℕ) : ℤ)
        rw [rowsDims_start1, rowsDims_window1]; omega

end Rows

/-! ## A gather of rows -/

section RowGather
variable {α : Type} {N E D w : Nat}

/-- The dimension numbers of `x[ids]` for a matrix `x` and a vector of row numbers: the result's axis 1 is the
    offset into the row, the operand's axis 0 is collapsed and indexed by the one component of each start index. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

variable (wf : GatherDims.WF ⟨2, ![N, D]⟩ ⟨2, ![E, 1]⟩ ⟨2, ![E, D]⟩ [1] [0] [] [0] [] 1 ![1, D])

/-- THE GATHER READ AT `(e, d)`: row `ids[e, 0]`, read signed and clamped into `[0, N - 1]`, column `d`. -/
theorem rowGather_apply (hN : 0 < N) (x : (⟨2, ![N, D]⟩ : Shape).Idx → α) (idx : IVec ⟨2, ![E, 1]⟩ w)
    (j : (⟨2, ![E, D]⟩ : Shape).Idx) :
    Host.gather (rowGatherDims N E D wf) x idx j
      = x (ix2 ⟨min (idx (colIdx (j 0))).toInt.toNat (N - 1), by omega⟩ (j 1)) := by
  unfold Host.gather
  congr 1
  funext a
  refine Fin.ext ?_
  match a with
  | ⟨0, _⟩ =>
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = colIdx (j 0) := by
      funext b; refine Fin.ext ?_
      match b with
      | ⟨0, _⟩ => rfl
      | ⟨1, _⟩ => rfl
    rw [hsi]
    rfl
  | ⟨1, _⟩ =>
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start GatherDims.offCoord
    rw [dif_neg (show (1 : Fin 2) ∉ ([0] : List (Fin 2)) by decide),
      dif_pos ((GatherDims.mem_sKept _ _).mpr ⟨show (1 : Fin 2) ∉ ([0] : List (Fin 2)) by decide, List.not_mem_nil⟩)]
    simp only [Nat.add_zero, Nat.zero_add]
    rfl

end RowGather

end Idealize.ShloMosaic.Landing

end
-- ==== Proof.KernelColumn.lean ====
/-
  The column the kernel's region finds, read at `(n, 0)`: the sum, from zero, of the weights of the edges whose raw
  segment id is `n`. The host's keepdims `[N] → [N, 1]` reads entry `n` of the vector; the vector is the flat
  segment sum of the weights; its initial value, a broadcast `+0.0`, is the extended real `0`.
-/
import proofs.«414492_j9887014715655_2_alg».proof.Proof.KernelArray
import proofs.«414492_j9887014715655_2_alg».proof.Proof.LibLanding
import Idealize.ShloMosaic.PureOps.Ideal.Laws

noncomputable section

namespace Cert.KernelIdeal.Scaled

open Cert.KernelIdeal Cert.KernelIdeal.Gen Idealize.ShloMosaic
open Idealize.ShloMosaic.ValueIdx Idealize.ShloMosaic.Landing

/-- A vector laid out as a one-column matrix reads, at `(n, 0)`, the vector at `n`. -/
theorem column_read (v : S100000.Idx → EReal) (n : Fin 100000) :
    broadcastInDim S100000x1 ![0] bcast_S100000_S100000x1_0 v (ix2 (n0 := 100000) n (⟨0, Nat.one_pos⟩ : Fin 1))
      = v (ix1 n) :=
  broadcastInDim_apply _ bcast_S100000_S100000x1_0 v _ (ix1 n) (fun a => match a with
    | ⟨0, _⟩ => by show n.val = if (100000 : Nat) = 1 then 0 else n.val; rw [if_neg (by decide)])

/-- Over the extended reals the host's accumulating scatter is the exact sum. -/
theorem scatterAdd_ideal {s si su : Shape} {w : Nat} (d : ScatterDims s si su) (x : s.Idx → EReal) (idx : IVec si w)
    (upd : su.Idx → EReal) :
    Host.scatterAdd (F := Ideal) (φ := .f32) d x idx upd = Ideal.hostScatterAdd d x idx upd := rfl

/-- The segment sum starts from zero. -/
theorem zeros_eq :
    broadcastInDim S100000 ![] bcast_S_S100000 (constant (F := Ideal) S_ .f32 0x00000000#32) = fun _ => (0 : EReal) := by
  funext k
  refine (broadcastInDim_apply _ bcast_S_S100000 _ k (fun a => a.elim0) (fun a => a.elim0)).trans ?_
  show FloatOps.ofBits (F := Ideal) .f32 0x00000000#32 = 0
  rw [Ideal.ofBits_def]
  exact Ideal.ofBits_zero_f32

/-- The printed dimension numbers of the host's scatter are those of a flat segment sum. -/
theorem dims_eq : scatter_S100000_S1600000x1_S1600000_n_0_0_1
    = segDims 100000 1600000 scatter_S100000_S1600000x1_S1600000_n_0_0_1_wf := rfl

/-- THE COLUMN AT `(n, 0)`: the weights of the edges with raw segment id `n`, summed from zero. -/
theorem weightColumn_apply (x0 : (⟨S2x1600000, .i32⟩ : BufTy).Contents (Elt Ideal))
    (x2 : (⟨S1600000, .f32⟩ : BufTy).Contents (Elt Ideal)) (n : Fin 100000) :
    weightColumn (F := Ideal) x0 x2 (ix2 (n0 := 100000) n (⟨0, Nat.one_pos⟩ : Fin 1))
      = Ideal.hostScatterAdd (segDims 100000 1600000 scatter_S100000_S1600000x1_S1600000_n_0_0_1_wf) (fun _ => 0)
          (segIds (F := Ideal) x0) x2 (ix1 n) := by
  refine (column_read _ n).trans ?_
  refine (congrFun (scatterAdd_ideal _ _ _ _) (ix1 n)).trans ?_
  refine (congrArg (fun z => Ideal.hostScatterAdd scatter_S100000_S1600000x1_S1600000_n_0_0_1 z
    (segIds (F := Ideal) x0) x2 (ix1 n)) zeros_eq).trans ?_
  exact congrArg (fun d => Ideal.hostScatterAdd d (fun _ => (0 : EReal)) (segIds (F := Ideal) x0) x2 (ix1 n)) dims_eq

end Cert.KernelIdeal.Scaled

end
-- ==== Proof.SegmentLaw.lean ====
/-
  The identity behind the kernel: gathering a row by a segment id, weighting it, and summing the weighted rows back
  onto the same segment id, is the row itself times the sum of the segment's weights.

  With ids `t : E → ℤ` (signed words), rows `X : N × D`, weights `W : E`:
      Σ_{e : t e = n} X[clamp (norm (t e)), d] · W e  =  X[n, d] · Σ_{e : t e = n} W e .
  An edge contributes to row `n` only when `t e = n`, and then `n` is a valid row number, so neither the
  negative-index normalisation `norm` nor the clamp moves it: every gathered row in the sum for row `n` IS row `n`.
  What is left is `Σ a · w_e = a · Σ w_e`, which on the extended reals needs `a` and the `w_e` finite
  (multiplication does not distribute over a sum with infinite terms of both signs), and holds for real numbers.
-/
import proofs.«414492_j9887014715655_2_alg».proof.Proof.LibLanding

noncomputable section

open scoped BigOperators

namespace Cert.SegmentLaw

open Idealize.ShloMosaic Idealize.ShloMosaic.ValueIdx Idealize.ShloMosaic.Landing

/-! ## Finite sums of real numbers inside the extended reals -/

/-- The inclusion of the reals commutes with finite sums. -/
theorem coe_sum {ι : Type*} (s : Finset ι) (f : ι → ℝ) :
    ((∑ e ∈ s, f e : ℝ) : EReal) = ∑ e ∈ s, (f e : EReal) := by
  classical
  induction s using Finset.induction_on with
  | empty => simp
  | insert a s ha ih => rw [Finset.sum_insert ha, Finset.sum_insert ha, EReal.coe_add, ih]

/-- A real factor moves out of a finite sum of real terms. -/
theorem real_mul_sum {ι : Type*} (a : ℝ) (s : Finset ι) (f : ι → ℝ) :
    ∑ e ∈ s, (a : EReal) * (f e : EReal) = (a : EReal) * ∑ e ∈ s, (f e : EReal) :=
  calc ∑ e ∈ s, (a : EReal) * (f e : EReal)
      = ∑ e ∈ s, ((a * f e : ℝ) : EReal) := Finset.sum_congr rfl fun e _ => (EReal.coe_mul a (f e)).symm
    _ = ((∑ e ∈ s, a * f e : ℝ) : EReal) := (coe_sum s _).symm
    _ = ((a * ∑ e ∈ s, f e : ℝ) : EReal) := by rw [Finset.mul_sum]
    _ = (a : EReal) * ((∑ e ∈ s, f e : ℝ) : EReal) := EReal.coe_mul _ _
    _ = (a : EReal) * ∑ e ∈ s, (f e : EReal) := by rw [coe_sum]

/-! ## The updates of one column of one row are the edges of that row -/

/-- Summing a function of the edge over the matrix updates `(e, d)` with `P e` and `d = d₀` is summing it over
    the edges with `P e`: the column is pinned, so `(e, d₀) ↔ e` is a bijection. -/
theorem sum_rows_eq_sum_seg {E D : Nat} (P : Fin E → Prop) [DecidablePred P] (d0 : Fin D) (g : Fin E → EReal) :
    ∑ j ∈ (Finset.univ : Finset (⟨2, ![E, D]⟩ : Shape).Idx).filter (fun j => P (j 0) ∧ (j 1).val = d0.val), g (j 0)
      = ∑ e ∈ (Finset.univ : Finset (⟨1, ![E]⟩ : Shape).Idx).filter (fun e => P (e 0)), g (e 0) := by
  refine Finset.sum_nbij' (fun j => ix1 (j 0)) (fun e => ix2 (e 0) d0) ?_ ?_ ?_ ?_ ?_
  · intro j hj
    simp only [Finset.mem_filter, Finset.mem_univ, true_and] at hj ⊢
    exact hj.1
  · intro e he
    simp only [Finset.mem_filter, Finset.mem_univ, true_and] at he ⊢
    exact ⟨he, rfl⟩
  · intro j hj
    simp only [Finset.mem_filter, Finset.mem_univ, true_and] at hj
    funext a
    match a with
    | ⟨0, _⟩ => rfl
    | ⟨1, _⟩ => exact (Fin.ext hj.2).symm
  · intro e _
    exact (eq_ix1 e).symm
  · intro j _
    rfl

/-! ## The identity -/

section Law
variable {N E D : Nat}

/-- THE SEGMENT LAW at one element `i = (n, d)`: the rows-scatter of the gathered, weighted rows is the row times the
    flat scatter of the weights. `ids` are the raw segment ids (both scatters read them), `ids'` the ids the gather
    reads, equal to `ids` wherever `ids` is non-negative (`hnorm`); rows and weights are real (`hX`, `hW`). -/
theorem segment_rows_eq (hN : 0 < N)
    (wfR : ScatterDims.WF ⟨2, ![N, D]⟩ ⟨2, ![E, 1]⟩ ⟨2, ![E, D]⟩ [1] [0] [0] 1)
    (wfK : ScatterDims.WF ⟨1, ![N]⟩ ⟨2, ![E, 1]⟩ ⟨1, ![E]⟩ [] [0] [0] 1)
    (wfG : GatherDims.WF ⟨2, ![N, D]⟩ ⟨2, ![E, 1]⟩ ⟨2, ![E, D]⟩ [1] [0] [] [0] [] 1 ![1, D])
    (ids ids' : IVec ⟨2, ![E, 1]⟩ 32)
    (hnorm : ∀ e : Fin E, 0 ≤ (ids (colIdx e)).toInt → ids' (colIdx e) = ids (colIdx e))
    (X : (⟨2, ![N, D]⟩ : Shape).Idx → EReal) (Wv : (⟨1, ![E]⟩ : Shape).Idx → EReal)
    (hX : ∀ i, ∃ r : ℝ, X i = r) (hW : ∀ e, ∃ r : ℝ, Wv e = r) (i : (⟨2, ![N, D]⟩ : Shape).Idx) :
    Ideal.hostScatterAdd (rowsDims N E D wfR) (fun _ => 0) ids
        (fun j => Host.gather (rowGatherDims N E D wfG) X ids' j * Wv (ix1 (j 0))) i
      = X i * Ideal.hostScatterAdd (segDims N E wfK) (fun _ => 0) ids Wv (ix1 (i 0)) := by
  classical
  obtain ⟨a, ha⟩ := hX i
  choose wr hwr using hW
  have hi0 : (i 0).val < N := (i 0).isLt
  unfold Ideal.hostScatterAdd
  simp only [zero_add]
  -- the rows that land on `i`: id `= n`, column `= d`
  rw [Finset.filter_congr (fun j _ => rowsDims_lands_iff wfR j ids i),
    Finset.filter_congr (fun e _ => segDims_lands_iff wfK e ids (ix1 (i 0)))]
  -- each gathered row in that sum is row `n`
  have hterm : ∀ j ∈ (Finset.univ : Finset (⟨2, ![E, D]⟩ : Shape).Idx).filter
        (fun j => (ids (colIdx (j 0))).toInt = ((i 0).val : ℤ) ∧ (j 1).val = (i 1).val),
      Host.gather (rowGatherDims N E D wfG) X ids' j * Wv (ix1 (j 0)) = X i * Wv (ix1 (j 0)) := by
    intro j hj
    simp only [Finset.mem_filter, Finset.mem_univ, true_and] at hj
    obtain ⟨hz, hd⟩ := hj
    rw [rowGather_apply wfG hN]
    have hn := hnorm (j 0) (by omega)
    congr 2
    funext b
    match b with
    | ⟨0, _⟩ =>
      exact Fin.ext (by show min (ids' (colIdx (j 0))).toInt.toNat (N - 1) = (i 0).val; rw [hn]; omega)
    | ⟨1, _⟩ => exact Fin.ext hd
  refine (Finset.sum_congr rfl hterm).trans ?_
  refine (sum_rows_eq_sum_seg (fun e : Fin E => (ids (colIdx e)).toInt = ((i 0).val : ℤ)) (i 1)
    (fun e => X i * Wv (ix1 e))).trans ?_
  -- a real factor out of a sum of reals
  rw [ha]
  have hsum : ∀ s : Finset (⟨1, ![E]⟩ : Shape).Idx,
      ∑ e ∈ s, (a : EReal) * Wv (ix1 (e 0)) = (a : EReal) * ∑ e ∈ s, Wv e := by
    intro s
    have h1 : ∀ e ∈ s, (a : EReal) * Wv (ix1 (e 0)) = (a : EReal) * ((wr e : ℝ) : EReal) := fun e _ =>
      congrArg (fun v => (a : EReal) * v) ((congrArg Wv (eq_ix1 e).symm).trans (hwr e))
    have h2 : ∀ e ∈ s, Wv e = ((wr e : ℝ) : EReal) := fun e _ => hwr e
    rw [Finset.sum_congr rfl h1, Finset.sum_congr rfl h2]
    exact real_mul_sum a s wr
  exact hsum _

end Law

end Cert.SegmentLaw

end
-- ==== Proof.RefValue.lean ====
/-
  What the reference computes, read at one element, and the segment law applied to it.

  The reference gathers row `x[ids'[e]]` for every edge (`ids'` the segment id with a negative value wrapped by
  `+ N`, as jnp indexing does), weights it by `W[e]`, and sums the weighted rows onto the RAW segment id. An edge
  whose raw id is negative or `≥ N` is dropped by that sum; for the others the wrap is the identity, because the
  signed compare `id < 0` is false. So element `(n, d)` of the reference is
  `x[n, d] · Σ_{e : ids[e] = n} W[e]` (Proof/SegmentLaw.lean).
-/
import proofs.«414492_j9887014715655_2_alg».proof.Proof.Gen.ReferenceIdeal.Read
import proofs.«414492_j9887014715655_2_alg».proof.Proof.SegmentLaw
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.Landing

/-- A select on "the word is negative" keeps a non-negative word. -/
theorem select_negative_keeps (t u : BitVec 32) (h : 0 ≤ t.toInt) :
    Scalar.select (IntOp.cmpi .slt t 0#32) u t = t := by
  have hc : IntOp.cmpi .slt t 0#32 = 0#1 := by
    unfold IntOp.cmpi
    have hs : t.slt 0#32 = false := by
      rw [BitVec.slt]
      simp only [BitVec.toInt_zero, decide_eq_false_iff_not, not_lt]
      exact h
    simp [hs]
  rw [hc]
  exact if_neg (by decide)

/-- Over the extended reals the host's accumulating scatter is the exact sum. -/
theorem scatterAdd_ideal {s si su : Shape} {w : Nat} (d : ScatterDims s si su) (x : s.Idx → EReal) (idx : IVec si w)
    (upd : su.Idx → EReal) :
    Host.scatterAdd (F := Ideal) (φ := .f32) d x idx upd = Ideal.hostScatterAdd d x idx upd := rfl

/-- The printed dimension numbers of the reference's gather are those of a gather of rows. -/
theorem gatherDims_eq : gather_S100000x32_S1600000x1_S1600000x32_1_0_n_n_0_1_132
    = rowGatherDims 100000 1600000 32 gather_S100000x32_S1600000x1_S1600000x32_1_0_n_n_0_1_132_wf := rfl

/-- The printed dimension numbers of the reference's scatter are those of a segment sum of rows. -/
theorem scatterDims_eq : scatter_S100000x32_S1600000x1_S1600000x32_1_0_0_1
    = rowsDims 100000 1600000 32 scatter_S100000x32_S1600000x1_S1600000x32_1_0_0_1_wf := rfl

variable (x0 : (⟨S2x1600000, .i32⟩ : BufTy).Contents (Elt Ideal))

/-- The raw ids' column entry `[e, 0]` is the id of edge `e`. -/
theorem ids_col (e : Fin 1600000) :
    val_main_v13 (F := Ideal) x0 (colIdx e) = val_main_v1 (F := Ideal) x0 (ix1 e) := by
  refine (val_main_v13_apply x0 (colIdx e)).trans ?_
  refine congrArg (val_main_v1 (F := Ideal) x0) ?_
  funext a
  match a with
  | ⟨0, _⟩ => rfl

/-- The wrapped ids' column entry `[e, 0]` is the wrapped id of edge `e`. -/
theorem wrapped_at (e : Fin 1600000) :
    val_main_v7 (F := Ideal) x0 (colIdx e)
      = Scalar.select (IntOp.cmpi .slt (val_main_v1 (F := Ideal) x0 (ix1 e)) 0#32)
          (val_main_v5 (F := Ideal) x0 (ix1 e)) (val_main_v1 (F := Ideal) x0 (ix1 e)) := by
  refine (val_main_v7_apply x0 (colIdx e)).trans ?_
  have hi : idx_main_v7 (colIdx e) = ix1 e := by
    funext a
    match a with
    | ⟨0, _⟩ => rfl
  refine (congrArg (val_main_v6 (F := Ideal) x0) hi).trans ?_
  refine (val_main_v6_apply x0 (ix1 e)).trans ?_
  refine congrArg (fun b => Scalar.select b (val_main_v5 (F := Ideal) x0 (ix1 e)) (val_main_v1 (F := Ideal) x0 (ix1 e))) ?_
  refine (val_main_v3_apply x0 (ix1 e)).trans ?_
  refine congrArg (fun z => IntOp.cmpi .slt (val_main_v1 (F := Ideal) x0 (ix1 e)) z) ?_
  exact (val_main_v2_apply (F := Ideal) (ix1 e)).trans (val_main_c_apply (F := Ideal) _)

/-- Where the raw id is non-negative the wrapped id is the raw id. -/
theorem wrapped_col (e : Fin 1600000) (h : 0 ≤ (val_main_v13 (F := Ideal) x0 (colIdx e)).toInt) :
    val_main_v7 (F := Ideal) x0 (colIdx e) = val_main_v13 (F := Ideal) x0 (colIdx e) := by
  have h' : 0 ≤ (val_main_v1 (F := Ideal) x0 (ix1 e)).toInt := (congrArg BitVec.toInt (ids_col x0 e)) ▸ h
  exact (wrapped_at x0 e).trans ((select_negative_keeps _ _ h').trans (ids_col x0 e).symm)

variable (x1 : (⟨S100000x32, .f32⟩ : BufTy).Contents (Elt Ideal)) (x2 : (⟨S1600000, .f32⟩ : BufTy).Contents (Elt Ideal))

/-- The broadcast weight at update `(e, d)` is the weight of edge `e`. -/
theorem weight_at (j : S1600000x32.Idx) : val_main_v10 (F := Ideal) x2 j = x2 (ix1 (j 0)) := by
  refine (val_main_v10_apply x2 j).trans ((val_main_v9_apply x2 _).trans (congrArg x2 ?_))
  funext a
  match a with
  | ⟨0, _⟩ => rfl

/-- The gathered rows, with the dimension numbers named. -/
theorem gathered_eq : val_main_v8 (F := Ideal) x0 x1
    = Host.gather (rowGatherDims 100000 1600000 32 gather_S100000x32_S1600000x1_S1600000x32_1_0_n_n_0_1_132_wf)
        x1 (val_main_v7 (F := Ideal) x0) :=
  congrArg (fun d => Host.gather d x1 (val_main_v7 (F := Ideal) x0)) gatherDims_eq

/-- The scattered updates: the gathered row times the edge's weight. -/
theorem updates_eq :
    val_main_v11 (F := Ideal) x0 x1 x2
      = fun j => Host.gather (rowGatherDims 100000 1600000 32 gather_S100000x32_S1600000x1_S1600000x32_1_0_n_n_0_1_132_wf)
          x1 (val_main_v7 (F := Ideal) x0) j * x2 (ix1 (j 0)) := by
  funext j
  refine (val_main_v11_apply x0 x1 x2 j).trans ?_
  refine (Ideal.mulf_def _ _).trans ?_
  exact congrArg₂ (fun a b : EReal => a * b) (congrFun (gathered_eq x0 x1) j) (weight_at x2 j)

/-- The sum starts from zero. -/
theorem init_eq : val_main_v12 (F := Ideal) = fun _ => (0 : EReal) := by
  funext k
  refine (val_main_v12_apply (F := Ideal) k).trans ((val_main_cst_apply (F := Ideal) _).trans ?_)
  rw [Ideal.ofBits_def]
  exact Ideal.ofBits_zero_f32

/-- The reference's result, with the exact sum, the zero start, the updates and the dimension numbers named. -/
theorem result_eq :
    val_main_v14 (F := Ideal) x0 x1 x2
      = Ideal.hostScatterAdd (rowsDims 100000 1600000 32 scatter_S100000x32_S1600000x1_S1600000x32_1_0_0_1_wf)
          (fun _ => 0) (val_main_v13 (F := Ideal) x0)
          (fun j => Host.gather (rowGatherDims 100000 1600000 32 gather_S100000x32_S1600000x1_S1600000x32_1_0_n_n_0_1_132_wf)
            x1 (val_main_v7 (F := Ideal) x0) j * x2 (ix1 (j 0))) := by
  refine (scatterAdd_ideal _ _ _ _).trans ?_
  refine (congrArg (fun z => Ideal.hostScatterAdd scatter_S100000x32_S1600000x1_S1600000x32_1_0_0_1 z
    (val_main_v13 (F := Ideal) x0) (val_main_v11 (F := Ideal) x0 x1 x2)) init_eq).trans ?_
  refine (congrArg (fun u => Ideal.hostScatterAdd scatter_S100000x32_S1600000x1_S1600000x32_1_0_0_1 (fun _ => (0 : EReal))
    (val_main_v13 (F := Ideal) x0) u) (updates_eq x0 x1 x2)).trans ?_
  exact congrArg (fun d => Ideal.hostScatterAdd d (fun _ => (0 : EReal)) (val_main_v13 (F := Ideal) x0)
    (fun j => Host.gather (rowGatherDims 100000 1600000 32 gather_S100000x32_S1600000x1_S1600000x32_1_0_n_n_0_1_132_wf)
      x1 (val_main_v7 (F := Ideal) x0) j * x2 (ix1 (j 0)))) scatterDims_eq

/-- ELEMENT `i = (n, d)` OF THE REFERENCE, for real features and weights: the feature `x[n, d]` times the sum of the
    weights of the edges whose raw segment id is `n`. -/
theorem result_apply (wfK : ScatterDims.WF ⟨1, ![100000]⟩ ⟨2, ![1600000, 1]⟩ ⟨1, ![1600000]⟩ [] [0] [0] 1)
    (hX : ∀ i, ∃ r : ℝ, x1 i = r) (hW : ∀ e, ∃ r : ℝ, x2 e = r) (i : S100000x32.Idx) :
    val_main_v14 (F := Ideal) x0 x1 x2 i
      = x1 i * Ideal.hostScatterAdd (segDims 100000 1600000 wfK) (fun _ => 0) (val_main_v13 (F := Ideal) x0) x2
          (ix1 (i 0)) :=
  (congrFun (result_eq x0 x1 x2) i).trans
    (SegmentLaw.segment_rows_eq (by decide) scatter_S100000x32_S1600000x1_S1600000x32_1_0_0_1_wf wfK
      gather_S100000x32_S1600000x1_S1600000x32_1_0_n_n_0_1_132_wf
      (val_main_v13 (F := Ideal) x0) (val_main_v7 (F := Ideal) x0) (fun e h => wrapped_col x0 e h) x1 x2 hX hW i)

end Cert.ReferenceIdeal.RefValue

end
-- ==== Proof.lean ====
/-
  `Cert.Claim` for a weighted message-passing aggregation.

  The reference gathers, for every edge `e`, the feature row of its target node, weights it by `W[e]`, and sums
  the weighted rows back onto the SAME target node: `ref[n, d] = Σ_{e : target e = n} x[target e, d] · W[e]`. The
  kernel first sums the weights per node on the host, `w[n] = Σ_{e : target e = n} W[e]`, and its one tiled region
  then scales row `n` of the features by `w[n]`: `ker[n, d] = x[n, d] · w[n]`.

  Every gathered row in the sum for node `n` is row `n` itself, so the two agree by `Σ a · w_e = a · Σ w_e`. On the
  extended reals that law needs the factor and the terms finite, which is what the precondition gives
  (Proof/Finite.lean). An edge whose target is not a valid node number is dropped by both sums alike, so no
  range condition on the integer input is needed (Proof/SegmentLaw.lean, Proof/LibLanding.lean).

  The kernel side: what the region leaves in the result array (Proof/KernelArray.lean, over the value leg of the
  frame) and what its column operand holds (Proof/KernelColumn.lean). The reference side: its run, read at an
  element (Proof/RefValue.lean). The ideal pass rewrote nothing, so `preserves` is `True`.
-/
import proofs.«414492_j9887014715655_2_alg».proof.Defs
import proofs.«414492_j9887014715655_2_alg».proof.Proof.Gen.Kernel
import proofs.«414492_j9887014715655_2_alg».proof.Proof.Gen.Kernel.Skeleton
import proofs.«414492_j9887014715655_2_alg».proof.Proof.Gen.Kernel.Launch
import proofs.«414492_j9887014715655_2_alg».proof.Proof.Gen.Kernel.Points
import proofs.«414492_j9887014715655_2_alg».proof.Proof.Gen.Kernel.Frame
import proofs.«414492_j9887014715655_2_alg».proof.Proof.Gen.KernelIdeal
import proofs.«414492_j9887014715655_2_alg».proof.Proof.Gen.KernelIdeal.Skeleton
import proofs.«414492_j9887014715655_2_alg».proof.Proof.Gen.KernelIdeal.Launch
import proofs.«414492_j9887014715655_2_alg».proof.Proof.Gen.KernelIdeal.Points
import proofs.«414492_j9887014715655_2_alg».proof.Proof.Gen.KernelIdeal.Frame
import proofs.«414492_j9887014715655_2_alg».proof.Proof.Gen.ReferenceIdeal
import proofs.«414492_j9887014715655_2_alg».proof.Proof.Gen.Pre_finite_inputs
import proofs.«414492_j9887014715655_2_alg».proof.Proof.Gen.KernelIdeal.Value
import proofs.«414492_j9887014715655_2_alg».proof.Proof.Gen.ReferenceIdeal.Run
import proofs.«414492_j9887014715655_2_alg».proof.Proof.Gen.ReferenceIdeal.Read
import proofs.«414492_j9887014715655_2_alg».proof.Proof.Finite
import proofs.«414492_j9887014715655_2_alg».proof.Proof.KernelColumn
import proofs.«414492_j9887014715655_2_alg».proof.Proof.RefValue
import Idealize.ShloMosaic.Adequacy
import Idealize.ShloMosaic.Init

noncomputable section

namespace Cert.Proof

open Idealize.ShloMosaic Idealize.ShloMosaic.TcCoe Idealize.SL.Sem
open Idealize.ShloMosaic.ValueIdx

/-- The printed kernel runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- An entry of the scaled rows, over the extended reals. -/
theorem scaled_apply (a : Cert.KernelIdeal.S100000x32.Idx → EReal) (col : Cert.KernelIdeal.S100000x1.Idx → EReal)
    (i : Cert.KernelIdeal.S100000x32.Idx) :
    Cert.KernelIdeal.Scaled.scaled (F := Ideal) a col i
      = a i * col (ix2 (n0 := 100000) (i 0) (⟨0, Nat.one_pos⟩ : Fin 1)) := rfl

/-- Both programs lay the raw segment ids out by the same three host operations. -/
theorem ids_agree (x0 : (⟨Cert.KernelIdeal.S2x1600000, .i32⟩ : BufTy).Contents (Elt Ideal)) :
    Cert.ReferenceIdeal.Read.val_main_v13 (F := Ideal) x0 = Cert.KernelIdeal.Scaled.segIds (F := Ideal) x0 := rfl

/-- Equal right factors give equal products. -/
theorem mul_right_congr {a b b' : EReal} (h : b = b') : a * b = a * b' := congrArg (fun v => a * v) h

/-- From agreeing, finite arguments both programs end with `x[n, d] · Σ_{e : target e = n} W[e]` at `(n, d)`. -/
theorem algebraic : Cert.algebraic_KernelIdeal_ReferenceIdeal := by
  intro m ρ m' ρ' hpre hagree
  refine ⟨_, Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _).trans ?_
  rw [(hagree c).1, (hagree c).2.1, (hagree c).2.2]
  obtain ⟨hX, hW⟩ := Cert.Finite.real_of_pre _ _ _ (hpre c)
  funext i
  refine (Cert.ReferenceIdeal.RefValue.result_apply _ _ _
    Cert.KernelIdeal.Gen.scatter_S100000_S1600000x1_S1600000_n_0_0_1_wf hX hW i).trans ?_
  refine Eq.trans ?_ (scaled_apply _ _ i).symm
  refine mul_right_congr ?_
  refine Eq.trans ?_ (Cert.KernelIdeal.Scaled.weightColumn_apply _ _ (i 0)).symm
  rw [ids_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
